-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S1600000 32) (main_arg4 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S2000x128 : Shape := ⟨2, ![2000, 128]⟩
abbrev S1600000x128 : Shape := ⟨2, ![1600000, 128]⟩
abbrev S1x128 : Shape := ⟨2, ![1, 128]⟩

abbrev nBuf : Space → Nat
  | .hbm => 51
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S50000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S50000x128, .f32⟩
  | .hbm, ⟨47, _⟩ => ⟨S1600000x1, .i32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Region0.lean ====
/-
  The first pallas_call, read as a value at the ideal instance. Its grid has 25 points; point t takes rows
  2000·t … 2000·t + 1999 of the first operand (a 50000 × 128 matrix) and the whole second operand (128 × 128), and writes
  back their matrix product, a 2000 × 128 block: entry (p, q) is ∑ₖ block[p, k] · second[k, q], the accumulator being
  zero. The 25 row blocks tile the result, so the result array ends as the matrix product of the two operand arrays,
  whatever they hold when the call is entered.
-/
import proofs.«411361_j25237227831551_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The matrix product of a 50000 × 128 and a 128 × 128 array of extended reals. -/
def matProd (a : S50000x128.Idx → EReal) (b : S128x128.Idx → EReal) : S50000x128.Idx → EReal :=
  fun i => ∑ k : Fin 128, a (ix2 (i 0) k) * b (ix2 k (i 1))

/-! The contraction's operand indices: at output (i₀, i₁) and contraction index k the left operand is read at
    (i₀, k) and the right at (k, i₁). -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at row `p`, column `q` of a block: the product's entry, a plain sum over the 128
    contraction indices. -/
theorem stored_apply (v0 : Vec Ideal S2000x128 .f32) (v1 : Vec Ideal S128x128 .f32) (p : Fin 2000) (q : Fin 128) :
    k0_pay1 v0 v1 (ix2 p q) = ∑ k : Fin 128, v0 (ix2 p k) * v1 (ix2 k q) := by
  unfold k0_pay1
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The block index maps over the grid: the left operand and the result move together, row block t at point t; the
    right operand stays at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem index_onto : ∀ q0 : Fin 25, ∃ t : Fin cfg0.N, win0_2.index t (0 : Fin 2) = q0.val ∧ win0_2.index t (1 : Fin 2) = 0 :=
  (by decide +kernel : ∀ q0 : Fin 25, ∃ t : Fin grid0.N, win0_2.index t (0 : Fin 2) = q0.val ∧ win0_2.index t (1 : Fin 2) = 0)

/-- The two operand arrays as the call finds them, at their literal types. -/
abbrev lhsArr (c : Dev nD) : S50000x128.Idx → EReal := V c (Pipeline.arrRef spec0 0)
abbrev rhsArr (c : Dev nD) : S128x128.Idx → EReal := V c (Pipeline.arrRef spec0 1)

/-- What point `t` writes back is block `t` of the matrix product of the two operand arrays as the call finds them. -/
theorem flushed_eq (c : Dev nD) (t : Fin cfg0.N) :
    (dat0 V c).flushed 2 t = ((cfg0.win 2).blk t).view.read (Elt Ideal)
      (matProd (lhsArr V c) (rhsArr V c)) := by
  show (cfg0.win 2).cut (grid0.coords t) ((dat0 V c).after 2 t) = _
  rw [after0_2]
  unfold out0_2
  rw [View.canon_unit_zero zero2]
  simp only [View.ld_unit_zero (S := S2000x128) zero2, View.ld_unit_zero (S := S128x128) zero2]
  obtain ⟨e0, e1, e2, e3, e4, e5⟩ := index_facts t
  funext j
  obtain ⟨p, q, rfl⟩ : ∃ (p : Fin 2000) (q : Fin 128), j = ix2 p q := ⟨j 0, j 1, eq_ix2 j⟩
  refine (stored_apply (iblk0 V c 0 t) (iblk0 V c 1 t) p q).trans ?_
  show _ = ∑ k : Fin 128, lhsArr V c (ix2 ((((cfg0.win 2).blk t).view.emb (ix2 p q)) 0) k)
      * rhsArr V c (ix2 k ((((cfg0.win 2).blk t).view.emb (ix2 p q)) 1))
  refine Finset.sum_congr rfl fun k _ => ?_
  show lhsArr V c (((cfg0.win 0).blk t).view.emb (ix2 p k)) * rhsArr V c (((cfg0.win 1).blk t).view.emb (ix2 k q))
    = lhsArr V c (ix2 ((((cfg0.win 2).blk t).view.emb (ix2 p q)) 0) k)
      * rhsArr V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- An index of the result is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v6).slice (win0_2.rect t)).set ↔ _
  rw [View.set_slice_whole, Rect.mem_set_unit]
  exact Iff.rfl

/-- Row r lies in the block of point r / 2000: the blocks cover the result. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := index_onto ⟨(i 0).val / 2000, by omega⟩
  have q0' : win0_2.index t (0 : Fin 2) = (i 0).val / 2000 := q0
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the call: the matrix product of the two operand arrays. -/
theorem final (c : Dev nD) :
    (dat0 V c).arrAt 2 cfg0.N = matProd (lhsArr V c) (rhsArr V c) :=
  (dat0 V c).arrAt_eq_of_cover 2 _ (fun t _ => flushed_eq V c t) covered

end Cert.KernelIdeal.Region0

end
-- ==== Proof.Region1.lean ====
/-
  The second pallas_call, read as a value. Its grid has 25 points; point t takes rows 2000·t … 2000·t + 1999 of the
  first operand (a 50000 × 128 matrix), the whole 128-vector of the second, and writes back the rows with the vector
  added to each. The 25 row blocks tile the result, so the result array ends as "every row of the matrix plus the vector",
  whatever the two operand arrays hold when the call is entered.
-/
import proofs.«411361_j25237227831551_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- Every row of the matrix `a` plus the vector `b`. -/
def rowsPlus (a : S50000x128.Idx → Elt F .f32) (b : S128.Idx → Elt F .f32) : S50000x128.Idx → Elt F .f32 :=
  fun i => FloatOps.addf (a i) (b (ix1 (i 1)))

/-- The body's stored value at row `p`, column `q` of a block: the loaded row block's entry plus the vector's `q`-th. -/
theorem stored_apply (v0 : Vec F S2000x128 .f32) (v2 : Vec F S128 .f32) (p : Fin 2000) (q : Fin 128) :
    k1_pay1 v0 v2 (ix2 p q) = FloatOps.addf (v0 (ix2 p q)) (v2 (ix1 q)) := by
  unfold k1_pay1
  show FloatOps.addf (shapeCast S2000x128 v0 shapeCasts_S2000x128_S2000x128 (ix2 p q))
    (broadcastTo S2000x128 (shapeCast S1x128 v2 shapeCasts_S128_S1x128) broadcasts_S1x128_S2000x128 (ix2 p q)) = _
  rw [shapeCast_self, broadcastTo_1b_ab_apply, shapeCast_a_1a_apply]

/-- The block index maps over the grid: the matrix operand and the result move together, block t at point t; the vector
    stays at its one block. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Every row block is some point's. -/
theorem index_onto : ∀ q0 : Fin 25, ∃ t : Fin cfg1.N, win1_2.index t (0 : Fin 2) = q0.val ∧ win1_2.index t (1 : Fin 2) = 0 :=
  (by decide +kernel : ∀ q0 : Fin 25, ∃ t : Fin grid1.N, win1_2.index t (0 : Fin 2) = q0.val ∧ win1_2.index t (1 : Fin 2) = 0)

/-- What point `t` writes back is block `t` of "rows plus vector" of the two operand arrays as the call finds them. -/
theorem flushed_eq (c : Dev nD) (t : Fin cfg1.N) :
    (dat1 V c).flushed 2 t = ((cfg1.win 2).blk t).view.read (Elt F)
      (rowsPlus (V c (Pipeline.arrRef spec1 0)) (V c (Pipeline.arrRef spec1 1))) := by
  show (cfg1.win 2).cut (grid1.coords t) ((dat1 V c).after 2 t) = _
  rw [after1_2]
  unfold out1_2
  rw [View.canon_unit_zero zero2]
  simp only [View.ld_unit_zero (S := S2000x128) zero2, View.ld_unit_zero (S := S128) zero1]
  obtain ⟨e0, e1, e2, e3, e4⟩ := index_facts t
  funext j
  obtain ⟨p, q, rfl⟩ : ∃ (p : Fin 2000) (q : Fin 128), j = ix2 p q := ⟨j 0, j 1, eq_ix2 j⟩
  refine (stored_apply (iblk1 V c 0 t) (iblk1 V c 1 t) p q).trans ?_
  show FloatOps.addf (V c (Pipeline.arrRef spec1 0) (((cfg1.win 0).blk t).view.emb (ix2 p q)))
      (V c (Pipeline.arrRef spec1 1) (((cfg1.win 1).blk t).view.emb (ix1 q)))
    = FloatOps.addf (V c (Pipeline.arrRef spec1 0) (((cfg1.win 2).blk t).view.emb (ix2 p q)))
      (V c (Pipeline.arrRef spec1 1) (ix1 ((((cfg1.win 2).blk t).view.emb (ix2 p q)) 1)))
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix1 q) = ix1 ((((cfg1.win 2).blk t).view.emb (ix2 p q)) 1) := by
    funext a; apply Fin.ext
    match a with
    | ⟨0, _⟩ => show win1_1.index t (0 : Fin 1) * 128 + 1 * q.val = win1_2.index t (1 : Fin 2) * 128 + 1 * q.val; omega
  rw [h0, h1]
  rfl

/-- An index of the result is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v35).slice (win1_2.rect t)).set ↔ _
  rw [View.set_slice_whole, Rect.mem_set_unit]
  exact Iff.rfl

/-- Row r lies in the block of point r / 2000: the blocks cover the result. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, q0, q1⟩ := index_onto ⟨(i 0).val / 2000, by omega⟩
  have q0' : win1_2.index t (0 : Fin 2) = (i 0).val / 2000 := q0
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the call: every row of the first operand array plus the second operand array. -/
theorem final (c : Dev nD) :
    (dat1 V c).arrAt 2 cfg1.N = rowsPlus (V c (Pipeline.arrRef spec1 0)) (V c (Pipeline.arrRef spec1 1)) :=
  (dat1 V c).arrAt_eq_of_cover 2 _ (fun t _ => flushed_eq V c t) covered

end Cert.KernelIdeal.Region1

end
-- ==== Proof.KernelHost.lean ====
/-
  The kernel program's result as ONE function of its five arguments (at the ideal instance).

  The program is four stretches: host operations that count each node's out-degree d and raise it to the power −1/2;
  the first pallas_call, the matrix product x · weight; host operations that form, per edge e = (row, col), the weight
  wₑ = d[row]^(−1/2) · d[col]^(−1/2) (negative indices wrapped by 50000, gathers clamped), multiply row `col` of the product
  by it and add the products into row `row` of a zero matrix; the second pallas_call, which adds the bias to every row.
  Each stretch's result is read off the contents the stretch before it leaves.
-/
import proofs.«411361_j25237227831551_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«411361_j25237227831551_3_alg».proof.Proof.Region0
import proofs.«411361_j25237227831551_3_alg».proof.Proof.Region1
import Idealize.ShloMosaic.Lib.StableHlo.Run
set_option maxRecDepth 16384

noncomputable section

namespace Cert.KernelIdeal.Stretch

open Cert.KernelIdeal Cert.KernelIdeal.Gen
open Idealize.ShloMosaic Idealize.ShloMosaic.TcCoe Idealize.ShloMosaic.ValueIdx Idealize.SL.Sem
open Idealize.ShloMosaic.Pipeline (Dat Cfg Window)

open Idealize.ShloMosaic.StableHlo

section Generic
variable {F : FTy → Type} [FloatOps F]

/-- An index vector with its negative entries wrapped by 50000, as a one-column matrix (the start or scatter indices of
    a gather or scatter of rows). -/
def wrapCol (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- Every node's out-degree (a one added per edge at the edge's row index, into zeros) to the power −1/2. -/
def degPow (x3 : IVec S1600000 32) : FVec F S50000 .f32 :=
  Host.powf
    (Host.scatterAdd scatter_S50000_S1600000x1_S1600000_n_0_0_1
      (broadcastInDim S50000 ![] bcast_S_S50000 (constant S_ .f32 0x00000000#32))
      (broadcastInDim S1600000x1 ![0] bcast_S1600000_S1600000x1_0 x3)
      (broadcastInDim S1600000 ![] bcast_S_S1600000 (constant S_ .f32 0x3F800000#32)))
    (broadcastInDim S50000 ![] bcast_S_S50000 (constant S_ .f32 0xBF000000#32))

/-- The edges' weights as a one-column matrix: the product of the two gathered entries of `v5`. -/
def weightCol (v5 : FVec F S50000 .f32) (x3 x4 : IVec S1600000 32) : FVec F S1600000x1 .f32 :=
  broadcastInDim S1600000x1 ![0] bcast_S1600000_S1600000x1_0
    (mulf (Host.gather gather_S50000_S1600000x1_S1600000_n_0_n_n_0_1_1 v5 (wrapCol x3))
      (Host.gather gather_S50000_S1600000x1_S1600000_n_0_n_n_0_1_1 v5 (wrapCol x4)))

/-- The aggregation: per edge, row `col` of `v6` times the edge's weight, added into row `row` of a zero matrix. -/
def aggregate (v5 : FVec F S50000 .f32) (v6 : FVec F S50000x128 .f32) (x3 x4 : IVec S1600000 32) : FVec F S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 x3)
    (mulf (broadcastInDim S1600000x128 ![0, 1] bcast_S1600000x1_S1600000x128_0_1 (weightCol v5 x3 x4))
      (Host.gather gather_S50000x128_S1600000x1_S1600000x128_1_0_n_n_0_1_1128 v6 (wrapCol x4)))

variable (m : (ℓ : Loc nD τ sig) → Buf (Elt F) ℓ) (ρ : Dev nD → PrngReg)

/-! ### After the first host stretch -/

theorem W1_v5 (c : Dev nD) : W1 m ρ c (Proc.devRef .tc main_v5) = degPow (F := F) (m ((c : Thread nD τ).loc main_arg3)) := by
  show StableHlo.after hostOps0 (W0 m ρ c) (Proc.devRef .tc main_v5) = _
  after_results
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results

/-! ### After the first pallas_call: what it does not write is as before -/

theorem W2_v5 (c : Dev nD) : W2 m ρ c (Proc.devRef .tc main_v5) = degPow (F := F) (m ((c : Thread nD τ).loc main_arg3)) :=
  (W2_of_ne m ρ c main_v5 (by decide)).trans (W1_v5 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)

/-! ### After the second host stretch -/

theorem W3_v34 (c : Dev nD) : W3 m ρ c (Proc.devRef .tc main_v34)
    = aggregate (F := F) (W2 m ρ c (Proc.devRef .tc main_v5)) (W2 m ρ c (Proc.devRef .tc main_v6))
        (W2 m ρ c (Proc.devRef .tc main_arg3)) (W2 m ρ c (Proc.devRef .tc main_arg4)) := by
  show StableHlo.after hostOps1 (W2 m ρ c) (Proc.devRef .tc main_v34) = _
  after_results_simp
  rfl
theorem W3_arg2 (c : Dev nD) : W3 m ρ c (Proc.devRef .tc main_arg2) = W2 m ρ c (Proc.devRef .tc main_arg2) := by
  show StableHlo.after hostOps1 (W2 m ρ c) (Proc.devRef .tc main_arg2) = _
  after_results_simp

end Generic

/-! ### The result -/

section AtIdeal
variable (m : (ℓ : Loc nD τ sig) → Buf (Elt Ideal) ℓ) (ρ : Dev nD → PrngReg)

/-- The first pallas_call leaves the matrix product of the first two arguments in its result buffer. -/
theorem W2_v6 (c : Dev nD) : W2 m ρ c (Proc.devRef .tc main_v6)
    = Region0.matProd (m ((c : Thread nD τ).loc main_arg0)) (m ((c : Thread nD τ).loc main_arg1)) := by
  refine (W2_arr m ρ c 2).trans ?_
  rw [Region0.final (V1 m ρ) c]
  show Region0.matProd (W1 m ρ c (Proc.devRef .tc main_arg0)) (W1 m ρ c (Proc.devRef .tc main_arg1)) = _
  rw [W1_arg0, W1_arg1]

/-- The kernel program's result, as a function of its arguments. -/
def result (x0 : FVec Ideal S50000x128 .f32) (x1 : FVec Ideal S128x128 .f32) (x2 : FVec Ideal S128 .f32)
    (x3 x4 : IVec S1600000 32) : S50000x128.Idx → EReal :=
  Region1.rowsPlus (F := Ideal) (aggregate (F := Ideal) (degPow x3) (Region0.matProd x0 x1) x3 x4) x2

/-- The result buffer's contents after the last pallas_call are that function of the launch contents of the arguments. -/
theorem W4_v35 (c : Dev nD) : W4 m ρ c (Proc.devRef .tc main_v35)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 2).trans ?_
  rw [Region1.final (V3 m ρ) c]
  show Region1.rowsPlus (F := Ideal) (W3 m ρ c (Proc.devRef .tc main_v34)) (W3 m ρ c (Proc.devRef .tc main_arg2)) = _
  rw [W3_v34, W3_arg2, W2_v5, W2_v6, W2_arg2, W2_arg3, W2_arg4]
  rfl

end AtIdeal

end Cert.KernelIdeal.Stretch

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.Spec.lean ====
/-
  Extended reals that are real numbers, and the one law this certificate rests on.

  On the extended reals multiplication does not distribute over addition at the infinities, so the law that moves a
  matrix product across a weighted sum of rows,
      ∑ₑ [e lands on the row] wₑ · (∑ₖ xₑₖ · Wₖ)  =  ∑ₖ (∑ₑ [e lands on the row] wₑ · xₑₖ) · Wₖ,
  is proved for weights, entries and matrix coefficients that are real numbers: there it is the distributive law
  and an exchange of the two finite sums.
-/
import Idealize.ShloMosaic.PureOps.Ideal
import Idealize.ShloMosaic.PureOps.Ideal.Laws
import Mathlib.Data.EReal.Operations
import Mathlib.Algebra.BigOperators.Group.Finset.Basic
import Mathlib.Algebra.BigOperators.Ring.Finset

noncomputable section

open scoped BigOperators

namespace Cert.Spec

open Idealize.ShloMosaic

/-- An extended real that is a real number (neither infinity). -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- A real base to a real exponent is a real number at the ideal instance (the real power function, whatever the
    base's sign and also at base zero). -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-- A 32-bit float word whose exponent field is not all ones denotes a real number. -/
theorem isReal_ofBits_f32 (b : BitVec 32) (h : (b.extractLsb' 23 8).toNat ≠ 255) : IsReal (Ideal.ofBits .f32 b) := by
  show IsReal (Ideal.ieee 8 23 b)
  unfold Ideal.ieee
  dsimp only
  rw [if_neg (by simpa using h)]
  split <;> exact ⟨_, rfl⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else (b : EReal) := by
  split <;> rfl

/-- THE LAW. For real weights `w`, real entries `x` and real coefficients `W`: the weighted sum, over the edges `e`
    selected by `p`, of the products `∑ₖ xₑₖ Wₖ` is the product with `W` of the weighted sums of the entries. -/
theorem sum_weighted_matmul {E K : Type*} [Fintype E] [Fintype K] (p : E → Prop) [DecidablePred p]
    (w : E → EReal) (x : E → K → EReal) (W : K → EReal)
    (hw : ∀ e, IsReal (w e)) (hx : ∀ e k, IsReal (x e k)) (hW : ∀ k, IsReal (W k)) :
    (∑ e, if p e then w e * ∑ k, x e k * W k else 0) = ∑ k, (∑ e, if p e then w e * x e k else 0) * W k := by
  obtain ⟨wr, rfl⟩ : ∃ wr : E → ℝ, w = fun e => (wr e : EReal) :=
    ⟨fun e => (hw e).choose, funext fun e => (hw e).choose_spec⟩
  obtain ⟨xr, rfl⟩ : ∃ xr : E → K → ℝ, x = fun e k => (xr e k : EReal) :=
    ⟨fun e k => (hx e k).choose, funext fun e => funext fun k => (hx e k).choose_spec⟩
  obtain ⟨Wr, rfl⟩ : ∃ Wr : K → ℝ, W = fun k => (Wr k : EReal) :=
    ⟨fun k => (hW k).choose, funext fun k => (hW k).choose_spec⟩
  have hL : (∑ e, if p e then (wr e : EReal) * ∑ k, (xr e k : EReal) * (Wr k : EReal) else 0)
      = ((∑ e, if p e then wr e * ∑ k, xr e k * Wr k else 0 : ℝ) : EReal) := by
    simp only [coe_sum, EReal.coe_mul, coe_ite, EReal.coe_zero]
  have hR : (∑ k, (∑ e, if p e then (wr e : EReal) * (xr e k : EReal) else 0) * (Wr k : EReal))
      = ((∑ k, (∑ e, if p e then wr e * xr e k else 0) * Wr k : ℝ) : EReal) := by
    simp only [coe_sum, EReal.coe_mul, coe_ite, EReal.coe_zero]
  rw [hL, hR]
  refine congrArg _ ?_
  rw [show (∑ k, (∑ e, if p e then wr e * xr e k else 0) * Wr k) = ∑ e, ∑ k, (if p e then wr e * xr e k else 0) * Wr k by
    simp only [Finset.sum_mul]; exact Finset.sum_comm]
  refine Finset.sum_congr rfl fun e _ => ?_
  by_cases h : p e
  · simp only [if_pos h, Finset.mul_sum, mul_assoc]
  · simp only [if_neg h, zero_mul, Finset.sum_const_zero]

end Cert.Spec

end
-- ==== Proof.Core.lean ====
/-
  The aggregation commutes with the projection, over abstract operands.

  Rows of a 50000 × 128 matrix are gathered by a column of start indices, each gathered row is scaled by its edge's
  weight, and the scaled rows are added into the rows of a zero matrix named by a column of scatter indices. Doing
  this to the product x · W gives, entry by entry, the product with W of what it gives for x — provided the weights
  and the entries of x and W are real numbers, so that multiplication distributes over the sums.
-/
import proofs.«411361_j25237227831551_3_alg».proof.Proof.LibIndex
import proofs.«411361_j25237227831551_3_alg».proof.Proof.Spec

noncomputable section

open scoped BigOperators

namespace Cert.Core

open Idealize.ShloMosaic Idealize.ShloMosaic.ValueIdx Cert.Spec Cert.LibIndex

abbrev SN : Shape := ⟨2, ![50000, 128]⟩
abbrev SW : Shape := ⟨2, ![128, 128]⟩
abbrev SE1 : Shape := ⟨2, ![1600000, 1]⟩
abbrev SE : Shape := ⟨2, ![1600000, 128]⟩

/-- The matrix product of a 50000 × 128 and a 128 × 128 array of extended reals. -/
def matProd (a : SN.Idx → EReal) (b : SW.Idx → EReal) : SN.Idx → EReal :=
  fun i => ∑ k : Fin 128, a (ix2 (i 0) k) * b (ix2 k (i 1))

/-- Entry (v, j) of the aggregation of the product's rows is ∑ₖ (entry (v, k) of the aggregation of x's rows) · W[k, j]. -/
theorem aggregate_matmul
    (dS : ScatterDims SN SE1 SE) (hS1 : dS.updateWindowDims = [1]) (hS2 : dS.insertedWindowDims = [0])
    (hS3 : dS.scatterDimsToOperandDims = [0]) (hS4 : dS.indexVectorDim = 1)
    (dG : GatherDims SN SE1 SE) (hG1 : dG.offsetDims = [1]) (hG2 : dG.collapsedSliceDims = [0])
    (hG3 : dG.operandBatchingDims = []) (hG4 : dG.startIndicesBatchingDims = []) (hG5 : dG.startIndexMap = [0])
    (hG6 : dG.indexVectorDim = 1) (hG7 : dG.sliceSizes = ![1, 128])
    (z : FVec Ideal SN .f32) (hz : ∀ i, z i = 0)
    (r cidx : IVec SE1 32)
    (wc : FVec Ideal SE1 .f32) (hwc : ∀ i, IsReal (wc i))
    (wb : FVec Ideal SE .f32) (hwb : ∀ (e : Fin 1600000) (j : Fin 128), wb (ix2 e j) = wc (ix2 e (0 : Fin 1)))
    (x0 : FVec Ideal SN .f32) (h0 : ∀ i, IsReal (x0 i)) (x1 : FVec Ideal SW .f32) (h1 : ∀ i, IsReal (x1 i))
    (v : Fin 50000) (j : Fin 128) :
    Host.scatterAdd (F := Ideal) dS z r (mulf wb (Host.gather dG (matProd x0 x1) cidx)) (ix2 v j)
      = ∑ k : Fin 128, Host.scatterAdd (F := Ideal) dS z r (mulf wb (Host.gather dG x0 cidx)) (ix2 v k) * x1 (ix2 k j) := by
  -- a scaled gathered row, at an entry: the edge's weight times the entry of the row the start index names (clamped)
  have hm : ∀ (y : SN.Idx → EReal) (e : Fin 1600000) (k : Fin 128),
      mulf (F := Ideal) wb (Host.gather dG y cidx) (ix2 e k)
        = wc (ix2 e (0 : Fin 1)) * y (ix2 ⟨min (cidx (ix2 e (0 : Fin 1))).toInt.toNat (50000 - 1), by omega⟩ k) := by
    intro y e k
    show wb (ix2 e k) * Host.gather dG y cidx (ix2 e k) = _
    rw [hwb, gather_row_apply_of (by decide) dG hG1 hG2 hG3 hG4 hG5 hG6 hG7]
  rw [scatterAdd_row_apply_of dS hS1 hS2 hS3 hS4]
  simp only [scatterAdd_row_apply_of dS hS1 hS2 hS3 hS4, hz, zero_add, hm]
  exact sum_weighted_matmul (fun e : Fin 1600000 => (r (ix2 e (0 : Fin 1))).toInt = (v.val : Int))
    (fun e => wc (ix2 e (0 : Fin 1)))
    (fun e k => x0 (ix2 ⟨min (cidx (ix2 e (0 : Fin 1))).toInt.toNat (50000 - 1), by omega⟩ k))
    (fun k => x1 (ix2 k j)) (fun e => hwc _) (fun e k => h0 _) (fun k => h1 _)

end Cert.Core

end
-- ==== Proof.Bridge.lean ====
/-
  The two programs compute one function of real arguments.

  The kernel program aggregates the rows of x · weight and then adds the bias; the reference aggregates the rows of x,
  multiplies the aggregate by weight and adds the bias. Both form the edges' weights, the wrapped column indices and the
  scatter indices by the same operations, so the two results differ only in where the matrix product stands, and the
  aggregation commutes with it when the weights and the entries of x and weight are real numbers. The weights are:
  an out-degree is a finite sum of ones, a real base to the real exponent −1/2 is a real number at the ideal instance
  (also at base zero), and gathers, broadcasts and products keep real numbers real.
-/
import proofs.«411361_j25237227831551_3_alg».proof.Proof.KernelHost
import proofs.«411361_j25237227831551_3_alg».proof.Proof.Gen.ReferenceIdeal.Read
import proofs.«411361_j25237227831551_3_alg».proof.Proof.Core

set_option maxRecDepth 16384

noncomputable section

open scoped BigOperators

namespace Cert.Bridge

open Idealize.ShloMosaic Idealize.ShloMosaic.ValueIdx Cert.Spec
open Cert.ReferenceIdeal.Read

/-! ## Operations that keep real entries real -/

theorem isReal_gather {s si t : Shape} {w : Nat} (d : GatherDims s si t) (x : s.Idx → EReal) (idx : IVec si w)
    (hx : ∀ j, IsReal (x j)) (i : t.Idx) : IsReal (Host.gather d x idx i) := hx _

theorem isReal_scatterAdd {s si u : Shape} {w : Nat} {φ : FTy} (d : ScatterDims s si u) (x : FVec Ideal s φ) (idx : IVec si w)
    (upd : FVec Ideal u φ) (hx : ∀ j, IsReal (x j)) (hu : ∀ j, IsReal (upd j)) (i : s.Idx) :
    IsReal (Host.scatterAdd (F := Ideal) d x idx upd i) :=
  IsReal.add (hx i) (IsReal.sum _ _ fun j _ => hu j)

theorem isReal_hostPowf {φ : FTy} (a b : Ideal φ) (ha : IsReal a) (hb : IsReal b) :
    IsReal (FloatOps.hostPowf (F := Ideal) a b) := IsReal.pow ha hb

theorem isReal_mulf {φ : FTy} (a b : Ideal φ) (ha : IsReal a) (hb : IsReal b) :
    IsReal (FloatOps.mulf (F := Ideal) a b) := IsReal.mul ha hb

theorem isReal_word (b : BitVec 32) (h : (b.extractLsb' 23 8).toNat ≠ 255) :
    IsReal (FloatOps.ofBits (F := Ideal) .f32 b) := isReal_ofBits_f32 b h

/-! ## The edges' weights are real numbers -/

/-- Every node's out-degree to the power −1/2 is a real number. -/
theorem isReal_degPow (x3 : IVec Cert.ReferenceIdeal.S1600000 32) (i : Cert.ReferenceIdeal.S50000.Idx) :
    IsReal (val_main_v5 (F := Ideal) x3 i) := by
  rw [val_main_v5_apply]
  refine isReal_hostPowf _ _ ?_ ?_
  · unfold val_main_v3
    refine isReal_scatterAdd _ _ _ _ (fun j => ?_) (fun j => ?_) i
    · rw [val_main_v1_apply, val_main_cst_0_apply]
      exact isReal_word _ (by decide)
    · rw [val_main_v0_apply, val_main_cst_apply]
      exact isReal_word _ (by decide)
  · rw [val_main_v4_apply, val_main_cst_1_apply]
    exact isReal_word _ (by decide)

/-- The weight column's entries are real numbers. -/
theorem isReal_weight (x3 x4 : IVec Cert.ReferenceIdeal.S1600000 32) (i : Cert.ReferenceIdeal.S1600000x1.Idx) :
    IsReal (val_main_v21 (F := Ideal) x3 x4 i) := by
  rw [val_main_v21_apply, val_main_v20_apply]
  refine isReal_mulf _ _ ?_ ?_
  · unfold val_main_v12
    exact isReal_gather _ _ _ (isReal_degPow x3) _
  · unfold val_main_v19
    exact isReal_gather _ _ _ (isReal_degPow x3) _

/-- The zero matrix the aggregation starts from. -/
theorem zero_base (i : Cert.ReferenceIdeal.S50000x128.Idx) : val_main_v31 (F := Ideal) i = 0 := by
  rw [val_main_v31_apply, val_main_cst_7_apply]
  exact Ideal.ofBits_zero_f32

/-- The weight column broadcast along the 128 features reads the column. -/
theorem weight_bcast (x3 x4 : IVec Cert.ReferenceIdeal.S1600000 32) (e : Fin 1600000) (j : Fin 128) :
    val_main_v29 (F := Ideal) x3 x4 (ix2 e j) = val_main_v21 (F := Ideal) x3 x4 (ix2 e (0 : Fin 1)) := by
  rw [val_main_v29_apply]
  refine congrArg (val_main_v21 (F := Ideal) x3 x4) (funext fun a => Fin.ext ?_)
  match a with
  | ⟨0, _⟩ => rfl
  | ⟨1, _⟩ => rfl

/-! ## The kernel program's aggregation in the reference's words -/

theorem degPow_eq (x3 : IVec Cert.ReferenceIdeal.S1600000 32) :
    Cert.KernelIdeal.Stretch.degPow (F := Ideal) x3 = val_main_v5 (F := Ideal) x3 := rfl

theorem weight_eq (x3 x4 : IVec Cert.ReferenceIdeal.S1600000 32) :
    Cert.KernelIdeal.Stretch.weightCol (F := Ideal) (val_main_v5 (F := Ideal) x3) x3 x4 = val_main_v21 (F := Ideal) x3 x4 := rfl

theorem wrap_eq (x : IVec Cert.ReferenceIdeal.S1600000 32) :
    Cert.KernelIdeal.Stretch.wrapCol x = val_main_v27 (F := Ideal) x := rfl

/-- The kernel program's aggregation, of the product's rows, with the reference's weights, indices and zero base. -/
theorem aggregate_eq (x0 : FVec Ideal Cert.ReferenceIdeal.S50000x128 .f32) (x1 : FVec Ideal Cert.ReferenceIdeal.S128x128 .f32)
    (x3 x4 : IVec Cert.ReferenceIdeal.S1600000 32) :
    Cert.KernelIdeal.Stretch.aggregate (F := Ideal) (Cert.KernelIdeal.Stretch.degPow x3) (Cert.KernelIdeal.Region0.matProd x0 x1) x3 x4
      = Host.scatterAdd (F := Ideal) Cert.ReferenceIdeal.scatter_S50000x128_S1600000x1_S1600000x128_1_0_0_1 (val_main_v31 (F := Ideal)) (val_main_v32 (F := Ideal) x3)
          (mulf (val_main_v29 (F := Ideal) x3 x4)
            (Host.gather Cert.ReferenceIdeal.gather_S50000x128_S1600000x1_S1600000x128_1_0_n_n_0_1_1128 (Cert.Core.matProd x0 x1) (val_main_v27 (F := Ideal) x4))) := by
  unfold Cert.KernelIdeal.Stretch.aggregate
  rw [degPow_eq, weight_eq, wrap_eq]
  rfl

/-- The reference's aggregate, unfolded to the scatter of the scaled gathered rows of x. -/
theorem ref_aggregate (x0 : FVec Ideal Cert.ReferenceIdeal.S50000x128 .f32) (x3 x4 : IVec Cert.ReferenceIdeal.S1600000 32) :
    val_main_v33 (F := Ideal) x0 x3 x4
      = Host.scatterAdd (F := Ideal) Cert.ReferenceIdeal.scatter_S50000x128_S1600000x1_S1600000x128_1_0_0_1 (val_main_v31 (F := Ideal)) (val_main_v32 (F := Ideal) x3)
          (mulf (val_main_v29 (F := Ideal) x3 x4)
            (Host.gather Cert.ReferenceIdeal.gather_S50000x128_S1600000x1_S1600000x128_1_0_n_n_0_1_1128 x0 (val_main_v27 (F := Ideal) x4))) := rfl

/-- The kernel program's result at an entry: the aggregate's entry plus the bias's. -/
theorem result_apply (x0 : FVec Ideal Cert.ReferenceIdeal.S50000x128 .f32) (x1 : FVec Ideal Cert.ReferenceIdeal.S128x128 .f32)
    (x2 : FVec Ideal Cert.ReferenceIdeal.S128 .f32) (x3 x4 : IVec Cert.ReferenceIdeal.S1600000 32) (v : Fin 50000) (j : Fin 128) :
    Cert.KernelIdeal.Stretch.result x0 x1 x2 x3 x4 (ix2 v j)
      = FloatOps.addf (F := Ideal) (Cert.KernelIdeal.Stretch.aggregate (F := Ideal) (Cert.KernelIdeal.Stretch.degPow x3)
          (Cert.KernelIdeal.Region0.matProd x0 x1) x3 x4 (ix2 v j)) (x2 (ix1 j)) := by
  unfold Cert.KernelIdeal.Stretch.result Cert.KernelIdeal.Region1.rowsPlus
  rfl

/-! ## The two results -/

/-- For x and weight with real entries the kernel program's result function is the reference's last stage. -/
theorem result_eq (x0 : FVec Ideal Cert.ReferenceIdeal.S50000x128 .f32) (x1 : FVec Ideal Cert.ReferenceIdeal.S128x128 .f32)
    (x2 : FVec Ideal Cert.ReferenceIdeal.S128 .f32) (x3 x4 : IVec Cert.ReferenceIdeal.S1600000 32)
    (h0 : ∀ i, IsReal (x0 i)) (h1 : ∀ i, IsReal (x1 i)) :
    Cert.KernelIdeal.Stretch.result x0 x1 x2 x3 x4 = val_main_v37 (F := Ideal) x0 x1 x2 x3 x4 := by
  funext i
  obtain ⟨v, j, rfl⟩ : ∃ (v : Fin 50000) (j : Fin 128), i = ix2 v j := ⟨i 0, i 1, eq_ix2 i⟩
  have key := Cert.Core.aggregate_matmul Cert.ReferenceIdeal.scatter_S50000x128_S1600000x1_S1600000x128_1_0_0_1 rfl rfl rfl rfl
    Cert.ReferenceIdeal.gather_S50000x128_S1600000x1_S1600000x128_1_0_n_n_0_1_1128 rfl rfl rfl rfl rfl rfl rfl
    (val_main_v31 (F := Ideal)) zero_base (val_main_v32 (F := Ideal) x3) (val_main_v27 (F := Ideal) x4)
    (val_main_v21 (F := Ideal) x3 x4) (isReal_weight x3 x4) (val_main_v29 (F := Ideal) x3 x4) (weight_bcast x3 x4)
    x0 h0 x1 h1 v j
  have hl : ∀ k : Fin 128, lidx_main_v34 (ix2 v j) k = ix2 v k := fun k => funext fun a => Fin.ext (by
    match a with
    | ⟨0, _⟩ => rfl
    | ⟨1, _⟩ => rfl)
  have hr : ∀ k : Fin 128, ridx_main_v34 (ix2 v j) k = ix2 k j := fun k => funext fun a => Fin.ext (by
    match a with
    | ⟨0, _⟩ => rfl
    | ⟨1, _⟩ => rfl)
  have hb : idx_main_v35 (idx_main_v36 (ix2 v j)) = ix1 j := funext fun a => Fin.ext (by
    match a with
    | ⟨0, _⟩ => rfl)
  rw [val_main_v37_apply, val_main_v34_apply, val_main_v36_apply, val_main_v35_apply, hb, ref_aggregate]
  simp only [hl, hr]
  rw [result_apply, aggregate_eq, key]

end Cert.Bridge

end
-- ==== Proof.Finite.lean ====
/-
  What the precondition says: every entry of the three float arguments is a real number.

  The printed precondition is the conjunction of three tests "every |entry| is below +∞", one per float argument. At the
  ideal instance an entry is an extended real, |a| is max a (−a), and the word 0x7F800000 is +∞; so the test holds of
  an entry exactly when it is neither infinity.
-/
import proofs.«411361_j25237227831551_3_alg».proof.Pre_finite_inputs
import proofs.«411361_j25237227831551_3_alg».proof.Proof.Spec
import Idealize.ShloMosaic.Lib.ReduceAll
import Idealize.ShloMosaic.Lib.ValueIdx

noncomputable section

namespace Cert.Finite

open Idealize.ShloMosaic Cert.Spec Cert.Pre_finite_inputs

instance : Subsingleton S_.Idx := ⟨fun a b => funext fun d => d.elim0⟩

/-- The word of +∞. -/
theorem top_word : Ideal.ofBits .f32 0x7F800000#32 = ⊤ := by simp [Ideal.ofBits, Ideal.ieee]

/-- An extended real whose absolute value is below +∞ is a real number. -/
theorem isReal_of_abs_lt (a : EReal) (h : Ideal.cmp .olt (max a (-a)) (Ideal.ofBits .f32 0x7F800000#32) = 1#1) : IsReal a := by
  rw [top_word] at h
  induction a using EReal.rec with
  | bot => simp [Ideal.cmp] at h
  | coe r => exact ⟨r, rfl⟩
  | top => simp [Ideal.cmp] at h

/-- If the precondition holds of the arguments, the three float arguments have real entries. -/
theorem all_real [Facts] (a0 : FVec Ideal S50000x128 .f32) (a1 : FVec Ideal S128x128 .f32) (a2 : FVec Ideal S128 .f32)
    (a3 a4 : IVec S1600000 32) (h : fn (F := Ideal) a0 a1 a2 a3 a4 = fun _ => 1#1) :
    (∀ i, IsReal (a0 i)) ∧ (∀ i, IsReal (a1 i)) ∧ (∀ i, IsReal (a2 i)) := by
  have h' := congrFun h ValueIdx.ix0
  dsimp only [fn] at h'
  obtain ⟨h8, h12⟩ := IntOp.andi_eq_one.1 h'
  obtain ⟨h3, h7⟩ := IntOp.andi_eq_one.1 h8
  refine ⟨fun i => ?_, fun i => ?_, fun i => ?_⟩
  · have e := Host.reduce_andi_all _ _ _ _ _ h3 i
    exact isReal_of_abs_lt (a0 i) e
  · have e := Host.reduce_andi_all _ _ _ _ _ h7 i
    exact isReal_of_abs_lt (a1 i) e
  · have e := Host.reduce_andi_all _ _ _ _ _ h12 i
    exact isReal_of_abs_lt (a2 i) e

end Cert.Finite

end
-- ==== Proof.lean ====
/-
  A graph-convolution layer: out = (D A D) · x · weight + bias, where A is the adjacency matrix given by 1.6 million edges
  (row, col) over 50000 nodes and D is the diagonal of the out-degrees to the power −1/2.

  The kernel program projects first — x · weight in a pallas_call of 25 row blocks —, then aggregates the projected
  rows over the edges with the weights d[row]^(−1/2) · d[col]^(−1/2) on the host, then adds the bias in a second
  pallas_call. The reference aggregates the rows of x, multiplies the aggregate by weight and adds the bias. Over the
  extended reals the two agree because every weight is a real number (an out-degree is a finite count, and a real base to
  the exponent −1/2 is a real number at the ideal instance, also at degree zero) and every entry of x and weight is a real
  number by the precondition: among real numbers the aggregation, a weighted sum of rows, commutes with the product.

  The frames of the two kernel programs are the generated ones; the reference's frame is its generated run with the result
  dropped; the idealization rewrote nothing, so its conjunct is trivial.
-/
import proofs.«411361_j25237227831551_3_alg».proof.Defs
import proofs.«411361_j25237227831551_3_alg».proof.Proof.Gen.Kernel
import proofs.«411361_j25237227831551_3_alg».proof.Proof.Gen.Kernel.Skeleton
import proofs.«411361_j25237227831551_3_alg».proof.Proof.Gen.Kernel.Launch
import proofs.«411361_j25237227831551_3_alg».proof.Proof.Gen.Kernel.Points
import proofs.«411361_j25237227831551_3_alg».proof.Proof.Gen.Kernel.Frame
import proofs.«411361_j25237227831551_3_alg».proof.Proof.Gen.KernelIdeal
import proofs.«411361_j25237227831551_3_alg».proof.Proof.Gen.KernelIdeal.Skeleton
import proofs.«411361_j25237227831551_3_alg».proof.Proof.Gen.KernelIdeal.Launch
import proofs.«411361_j25237227831551_3_alg».proof.Proof.Gen.KernelIdeal.Points
import proofs.«411361_j25237227831551_3_alg».proof.Proof.Gen.KernelIdeal.Frame
import proofs.«411361_j25237227831551_3_alg».proof.Proof.Gen.ReferenceIdeal
import proofs.«411361_j25237227831551_3_alg».proof.Proof.Gen.ReferenceIdeal.Run
import proofs.«411361_j25237227831551_3_alg».proof.Proof.Gen.ReferenceIdeal.Read
import proofs.«411361_j25237227831551_3_alg».proof.Proof.Gen.Pre_finite_inputs
import proofs.«411361_j25237227831551_3_alg».proof.Proof.KernelRun
import proofs.«411361_j25237227831551_3_alg».proof.Proof.KernelHost
import proofs.«411361_j25237227831551_3_alg».proof.Proof.Bridge
import proofs.«411361_j25237227831551_3_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at one function of the arguments: the kernel program's run names its result
    buffer's last contents, which the stretches read back to `Stretch.result` of the launch contents; the reference's run
    ends at its last stage of arguments that agree with the kernel's; and the two functions agree on real x and weight. -/
theorem algebraic : Cert.algebraic_KernelIdeal_ReferenceIdeal := by
  intro m ρ m' ρ' hpre hagree
  refine ⟨fun c => Cert.KernelIdeal.Stretch.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Stretch.W4_v35 m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4⟩ := hagree c
    rw [Cert.ReferenceIdeal.Read.val_main_v37_eq, a0, a1, a2, a3, a4]
    obtain ⟨r0, r1, -⟩ := Cert.Finite.all_real _ _ _ _ _ (hpre c)
    exact (Cert.Bridge.result_eq _ _ _ _ _ r0 r1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
